-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S500000x2 : Shape := ⟨2, ![500000, 2]⟩
abbrev S128x128 : Shape := ⟨2, ![128, 128]⟩
abbrev S128x64 : Shape := ⟨2, ![128, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S100000x128 .f32) (main_arg1 : IVec S800000 32) (main_arg2 : IVec S800000 32) (main_arg3 : FVec F S800000 .f32) (main_arg4 : IVec S500000x2 32) (main_arg5 : FVec F S128x128 .f32) (main_arg6 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S100000x128 : Shape := ⟨2, ![100000, 128]⟩
abbrev S800000 : Shape := ⟨1, ![800000]⟩
abbrev S500000x2 : Shape := ⟨2, ![500000, 2]⟩
abbrev S128x128 : Shape := ⟨2, ![128, 128]⟩
abbrev S128x64 : Shape := ⟨2, ![128, 64]⟩
abbrev S800000x1 : Shape := ⟨2, ![800000, 1]⟩
abbrev S_ : Shape := ⟨0, ![]⟩
abbrev S800000x128 : Shape := ⟨2, ![800000, 128]⟩
abbrev S5000x128 : Shape := ⟨2, ![5000, 128]⟩
abbrev S100000x64 : Shape := ⟨2, ![100000, 64]⟩
abbrev S5000x64 : Shape := ⟨2, ![5000, 64]⟩
abbrev S500000x1 : Shape := ⟨2, ![500000, 1]⟩
abbrev S500000 : Shape := ⟨1, ![500000]⟩
abbrev S500000x64 : Shape := ⟨2, ![500000, 64]⟩
abbrev S5000x1 : Shape := ⟨2, ![5000, 1]⟩
abbrev S5000 : Shape := ⟨1, ![5000]⟩

abbrev nBuf : Space → Nat
  | .hbm => 65
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S500000x2, .i32⟩
  | .hbm, ⟨5, _⟩ => ⟨S128x128, .f32⟩
  | .hbm, ⟨6, _⟩ => ⟨S128x64, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S100000x128, .f32⟩
  | .hbm, ⟨21, _⟩ => ⟨S800000x1, .i32⟩
  | .hbm, ⟨22, _⟩ => ⟨S100000x128, .f32⟩
  | .hbm, ⟨23, _⟩ => ⟨S100000x128, .f32⟩
  | .hbm, ⟨24, _⟩ => ⟨S800000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S100000x128, .f32⟩
  | .hbm, ⟨38, _⟩ => ⟨S800000x1, .i32⟩
  | .hbm, ⟨39, _⟩ => ⟨S100000x128, .f32⟩
  | .hbm, ⟨40, _⟩ => ⟨S100000x64, .f32⟩
  | .hbm, ⟨41, _⟩ => ⟨S500000x1, .i32⟩
  | .hbm, ⟨42, _⟩ => ⟨S500000, .i32⟩
  | .hbm, ⟨43, _⟩ => ⟨S_, .i32⟩
  | .hbm, ⟨44, _⟩ => ⟨S500000, .i32⟩
  | .hbm, ⟨45, _⟩ => ⟨S500000, .i1⟩
  | .hbm, ⟨46, _⟩ => ⟨S_, .i32⟩
  | .hbm, ⟨47, _⟩ => ⟨S500000, .i32⟩
  | .hbm, ⟨48, _⟩ => ⟨S500000, .i32⟩
  | .hbm, ⟨49, _⟩ => ⟨S500000, .i32⟩
  | .hbm, ⟨50, _⟩ => ⟨S500000x1, .i32⟩
  | .hbm, ⟨51, _⟩ => ⟨S500000x64, .f32⟩
  | .hbm, ⟨52, _⟩ => ⟨S500000x1, .i32⟩
  | .hbm, ⟨53, _⟩ => ⟨S500000, .i32⟩
  | .hbm, ⟨54, _⟩ => ⟨S_, .i32⟩
  | .hbm, ⟨55, _⟩ => ⟨S500000, .i32⟩
  | .hbm, ⟨56, _⟩ => ⟨S500000, .i1⟩
  | .hbm, ⟨57, _⟩ => ⟨S_, .i32⟩
  | .hbm, ⟨58, _⟩ => ⟨S500000, .i32⟩
  | .hbm, ⟨59, _⟩ => ⟨S500000, .i32⟩
  | .hbm, ⟨60, _⟩ => ⟨S500000, .i32⟩
  | .hbm, ⟨61, _⟩ => ⟨S500000x1, .i32⟩
  | .hbm, ⟨62, _⟩ => ⟨S500000x64, .f32⟩
  | .hbm, ⟨63, _⟩ => ⟨S500000x1, .f32⟩
  | .hbm, ⟨64, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  shapeCasts_S5000x64_S5000x64 : S5000x64.ShapeCasts S5000x64
  reduces_S5000x64_S5000 : S5000x64.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S500000x1_S500000x64_1_0_n_n_0_1_164_wf : GatherDims.WF S100000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S500000x64.size a
  hwx2_0 : ∀ i : grid2.Coords, EltTy.bits .f32 = 32 ∨ (Rect.block (s := S500000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S500000x64.size a
  hwx2_1 : ∀ i : grid2.Coords, EltTy.bits .f32 = 32 ∨ (Rect.block (s := S500000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S500000x1.size a
  hwx2_2 : ∀ i : grid2.Coords, EltTy.bits .f32 = 32 ∨ (Rect.block (s := S500000x1) S5000x1.size (cc2_transform_2 i) (hinb2_2 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v36) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S800000 : Shape := ⟨1, ![800000]⟩
abbrev S500000x2 : Shape := ⟨2, ![500000, 2]⟩
abbrev S128x128 : Shape := ⟨2, ![128, 128]⟩
abbrev S128x64 : Shape := ⟨2, ![128, 64]⟩
abbrev S800000x1 : Shape := ⟨2, ![800000, 1]⟩
abbrev S_ : Shape := ⟨0, ![]⟩
abbrev S800000x128 : Shape := ⟨2, ![800000, 128]⟩
abbrev S100000x64 : Shape := ⟨2, ![100000, 64]⟩
abbrev S500000x1 : Shape := ⟨2, ![500000, 1]⟩
abbrev S500000 : Shape := ⟨1, ![500000]⟩
abbrev S500000x64 : Shape := ⟨2, ![500000, 64]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S500000x2, .i32⟩
  | .hbm, ⟨5, _⟩ => ⟨S128x128, .f32⟩
  | .hbm, ⟨6, _⟩ => ⟨S128x64, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S100000x128, .f32⟩
  | .hbm, ⟨21, _⟩ => ⟨S800000x1, .i32⟩
  | .hbm, ⟨22, _⟩ => ⟨S100000x128, .f32⟩
  | .hbm, ⟨23, _⟩ => ⟨S100000x128, .f32⟩
  | .hbm, ⟨24, _⟩ => ⟨S_, .f32⟩
  | .hbm, ⟨25, _⟩ => ⟨S100000x128, .f32⟩
  | .hbm, ⟨26, _⟩ => ⟨S100000x128, .f32⟩
  | .hbm, ⟨27, _⟩ => ⟨S800000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S100000x128, .f32⟩
  | .hbm, ⟨41, _⟩ => ⟨S800000x1, .i32⟩
  | .hbm, ⟨42, _⟩ => ⟨S100000x128, .f32⟩
  | .hbm, ⟨43, _⟩ => ⟨S100000x64, .f32⟩
  | .hbm, ⟨44, _⟩ => ⟨S500000x1, .i32⟩
  | .hbm, ⟨45, _⟩ => ⟨S500000, .i32⟩
  | .hbm, ⟨46, _⟩ => ⟨S_, .i32⟩
  | .hbm, ⟨47, _⟩ => ⟨S500000, .i32⟩
  | .hbm, ⟨48, _⟩ => ⟨S500000, .i1⟩
  | .hbm, ⟨49, _⟩ => ⟨S_, .i32⟩
  | .hbm, ⟨50, _⟩ => ⟨S500000, .i32⟩
  | .hbm, ⟨51, _⟩ => ⟨S500000, .i32⟩
  | .hbm, ⟨52, _⟩ => ⟨S500000, .i32⟩
  | .hbm, ⟨53, _⟩ => ⟨S500000x1, .i32⟩
  | .hbm, ⟨54, _⟩ => ⟨S500000x64, .f32⟩
  | .hbm, ⟨55, _⟩ => ⟨S500000x1, .i32⟩
  | .hbm, ⟨56, _⟩ => ⟨S500000, .i32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x64, .f32⟩
  | .hbm, ⟨66, _⟩ => ⟨S500000x64, .f32⟩
  | .hbm, ⟨67, _⟩ => ⟨S_, .f32⟩
  | .hbm, ⟨68, _⟩ => ⟨S500000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  reducesTo_S500000x64_S500000_d1 : S500000x64.ReducesTo [1] S500000
  h_S_ : 0 < S_.numel
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S500000x1_S500000x64_1_0_n_n_0_1_164_wf : GatherDims.WF S100000x64 S500000x1 S500000x64 [1] [0] [] [0] [] 1 ![1, 64]

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf

class Facts : Prop extends Facts₀ where

variable [Facts]
-- ==== Proof.Spec.lean ====
/- The three dense stages of the link predictor as whole-array functions over the extended reals:
   `lin1 X W = max (X · W) 0` (a layer with its ReLU), `lin2 X W = X · W`, and `dec a b`, the row-wise inner product
   `p ↦ 0 + ∑ₖ a[p,k] · b[p,k]`; `decCol` is the same column laid out as a [P, 1] array. Each is spelt with the
   host operations the reference program itself applies, so that the reference's composed term is built from them
   by definition. -/
import proofs.«128217_j41695542509975_1_alg».proof.Proof.Gen.ReferenceIdeal
import Idealize.ShloMosaic.PureOps.Ideal
import Idealize.ShloMosaic.Lib.ValueIdx

noncomputable section

namespace Cert.Hand

open Idealize.ShloMosaic Idealize.ShloMosaic.TcCoe
open Cert.ReferenceIdeal Cert.ReferenceIdeal.Facts₀

/-- One GCN layer's dense half with its ReLU: `max (X · W) 0`, entry by entry. -/
def lin1 (X : FVec Ideal S100000x128 .f32) (W : FVec Ideal S128x128 .f32) : FVec Ideal S100000x128 .f32 :=
  maximumf (Host.dotGeneral dot_S100000x128_S128x128_S100000x128_1_0_0_1_n_n none X W)
    (broadcastInDim S100000x128 ![] bcast_S_S100000x128 (constant S_ .f32 0x00000000#32))

/-- The second layer's dense half: `X · W`. -/
def lin2 (X : FVec Ideal S100000x128 .f32) (W : FVec Ideal S128x64 .f32) : FVec Ideal S100000x64 .f32 :=
  Host.dotGeneral dot_S100000x128_S128x64_S100000x64_1_0_0_1_n_n none X W

/-- The decoder: the inner product of row `p` of `a` with row `p` of `b`, from the initial value zero. -/
def dec (a b : FVec Ideal S500000x64 .f32) : FVec Ideal S500000 .f32 :=
  Host.reduceAdd (mulf a b) (constant S_ .f32 0x00000000#32) reducesTo_S500000x64_S500000_d1 h_S_

/-- The same column as a [P, 1] array. -/
def decCol (a b : FVec Ideal S500000x64 .f32) : FVec Ideal S500000x1 .f32 :=
  fun i => dec a b (ValueIdx.ix1 (i 0))

end Cert.Hand

end
-- ==== Proof.Chain.lean ====
/- The host side of the link predictor as whole-array functions over the extended reals, spelt with the host
   operations the reference program applies: `agg`, one sparse aggregation (gather the rows named by the wrapped
   column indices, scale each by its edge value, scatter-add into the rows named by the row indices, from zero);
   `pick`, the gather of the endpoint embeddings named by one wrapped column of the pair table; `embed`, the two
   layers; `final`, the decoder over the two endpoint gathers. A negative index wraps once (`i < 0 ? i + 100000 : i`),
   as jnp indexing does. -/
import proofs.«128217_j41695542509975_1_alg».proof.Proof.Spec

noncomputable section

namespace Cert.Hand

open Idealize.ShloMosaic Idealize.ShloMosaic.TcCoe
open Cert.ReferenceIdeal Cert.ReferenceIdeal.Facts₀

/-- The edge table's column indices, negative ones wrapped once, as a column of gather start indices. -/
def wrap8 (cols : (⟨S800000, .i32⟩ : BufTy).Contents (Elt Ideal)) : (⟨S800000x1, .i32⟩ : BufTy).Contents (Elt Ideal) :=
  broadcastInDim S800000x1 ![0] bcast_S800000_S800000x1_0 (select (cmpi .slt cols (broadcastInDim S800000 ![] bcast_S_S800000 (constantI S_ 32 0#32))) (addi cols (broadcastInDim S800000 ![] bcast_S_S800000 (constantI S_ 32 100000#32))) cols)

/-- One sparse aggregation: `out[i] = ∑ over edges e with rows[e] = i of vals[e] · h[cols[e]]`, from zero. -/
def agg (h : FVec Ideal S100000x128 .f32) (rows cols : (⟨S800000, .i32⟩ : BufTy).Contents (Elt Ideal))
    (vals : FVec Ideal S800000 .f32) : FVec Ideal S100000x128 .f32 :=
  Host.scatterAdd scatter_S100000x128_S800000x1_S800000x128_1_0_0_1 (broadcastInDim S100000x128 ![] bcast_S_S100000x128 (constant S_ .f32 0x00000000#32)) (broadcastInDim S800000x1 ![0] bcast_S800000_S800000x1_0 rows) (mulf (broadcastInDim S800000x128 ![0, 1] bcast_S800000x1_S800000x128_0_1 (broadcastInDim S800000x1 ![0] bcast_S800000_S800000x1_0 vals)) (Host.gather gather_S100000x128_S800000x1_S800000x128_1_0_n_n_0_1_1128 h (wrap8 cols)))

/-- Column 0 of the pair table as a vector. -/
def col0 (pairs : (⟨S500000x2, .i32⟩ : BufTy).Contents (Elt Ideal)) : (⟨S500000, .i32⟩ : BufTy).Contents (Elt Ideal) :=
  shapeCast S500000 (extractStridedSlice S500000x1 ![0, 0] pairs slices_S500000x2_S500000x1_0_0) shapeCasts_S500000x1_S500000

/-- Column 1 of the pair table as a vector. -/
def col1 (pairs : (⟨S500000x2, .i32⟩ : BufTy).Contents (Elt Ideal)) : (⟨S500000, .i32⟩ : BufTy).Contents (Elt Ideal) :=
  shapeCast S500000 (extractStridedSlice S500000x1 ![0, 1] pairs slices_S500000x2_S500000x1_0_1) shapeCasts_S500000x1_S500000

/-- A vector of node indices, negative ones wrapped once, as a column of gather start indices. -/
def wrap5 (p : (⟨S500000, .i32⟩ : BufTy).Contents (Elt Ideal)) : (⟨S500000x1, .i32⟩ : BufTy).Contents (Elt Ideal) :=
  broadcastInDim S500000x1 ![0] bcast_S500000_S500000x1_0 (select (cmpi .slt p (broadcastInDim S500000 ![] bcast_S_S500000 (constantI S_ 32 0#32))) (addi p (broadcastInDim S500000 ![] bcast_S_S500000 (constantI S_ 32 100000#32))) p)

/-- The embeddings of the nodes a vector of indices names, row by row. -/
def pick (h2 : FVec Ideal S100000x64 .f32) (p : (⟨S500000, .i32⟩ : BufTy).Contents (Elt Ideal)) :
    FVec Ideal S500000x64 .f32 :=
  Host.gather gather_S100000x64_S500000x1_S500000x64_1_0_n_n_0_1_164 h2 (wrap5 p)

/-- The two layers: aggregate, dense with ReLU, aggregate, dense. -/
def embed (x : FVec Ideal S100000x128 .f32) (rows cols : (⟨S800000, .i32⟩ : BufTy).Contents (Elt Ideal))
    (vals : FVec Ideal S800000 .f32) (W1 : FVec Ideal S128x128 .f32)
    (W2 : FVec Ideal S128x64 .f32) : FVec Ideal S100000x64 .f32 :=
  lin2 (agg (lin1 (agg x rows cols vals) W1) rows cols vals) W2

/-- The whole network: the inner product of the two endpoint embeddings of every pair. -/
def final (x : FVec Ideal S100000x128 .f32) (rows cols : (⟨S800000, .i32⟩ : BufTy).Contents (Elt Ideal))
    (vals : FVec Ideal S800000 .f32) (pairs : (⟨S500000x2, .i32⟩ : BufTy).Contents (Elt Ideal))
    (W1 : FVec Ideal S128x128 .f32) (W2 : FVec Ideal S128x64 .f32) :
    FVec Ideal S500000 .f32 :=
  dec (pick (embed x rows cols vals W1 W2) (col0 pairs)) (pick (embed x rows cols vals W1 W2) (col1 pairs))

end Cert.Hand

end
-- ==== Proof.Region0.lean ====
/- Region 0 of the kernel program (the first dense layer): what the pipelined matmul-with-ReLU kernel leaves in its
   output array, as ONE whole-array function of the two arrays it reads. Each grid point t writes rows
   5000·t … 5000·t + 4999; entry (r, j) of a block is max (∑ₖ X[5000·t + r, k] · W[k, j]) 0, the rounding to bf16
   being the identity on the extended reals, and the twenty blocks tile the array. -/
import proofs.«128217_j41695542509975_1_alg».proof.Proof.Gen.KernelIdeal.Frame
import proofs.«128217_j41695542509975_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The two contractions, index by index -/

/-- The block matmul's left operand index at output (r, j) and contraction index q keeps the row r … -/
theorem blkdot0_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and takes q as its column; -/
theorem blkdot0_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand index takes q as its row … -/
theorem blkdot0_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and keeps the column j. -/
theorem blkdot0_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The same four facts for the whole-array product's dimension numbers. -/
theorem arrdot0_lhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem arrdot0_lhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem arrdot0_rhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem arrdot0_rhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Entry (r, j) of the kernel body's result from a row block x0 and the weights x1: max (∑ₖ x0[r, k] · x1[k, j]) 0;
    the change of format is the identity on the extended reals and the accumulator is the zero splat. -/
theorem pay0_apply (x0 : FVec Ideal S5000x128 .f32) (x1 : FVec Ideal S128x128 .f32) (y : S5000x128.Idx) :
    k0_pay1 (F := Ideal) x0 x1 y
      = max (∑ k : Fin 128, x0 (ValueIdx.ix2 (y 0) k) * x1 (ValueIdx.ix2 k (y 1))) (Ideal.ofBits .f32 0x00000000#32) := by
  unfold k0_pay1
  rw [ValueIdx.maximumf_apply, ValueIdx.broadcast_apply, shapeCast_self]
  simp only [matmul]
  rw [Ideal.matmul_constant_zero_apply, ← Equiv.sum_comp (ValueIdx.contrEquiv1 dot_S5000x128_S128x128_S5000x128_1_0_0_1_n_n 128 rfl rfl).symm]
  refine congrArg (fun s => max s _) (Finset.sum_congr rfl fun k _ => ?_)
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = ValueIdx.ix2 (y 0) k := funext fun a => Fin.ext (by
    match a with
    | ⟨0, _⟩ => exact blkdot0_lhs_0 _ _
    | ⟨1, _⟩ => exact (blkdot0_lhs_1 _ _).trans hk)
  have er : dot_S5000x128_S128x128_S5000x128_1_0_0_1_n_n.rhsIdx y ((ValueIdx.contrEquiv1 dot_S5000x128_S128x128_S5000x128_1_0_0_1_n_n 128 rfl rfl).symm k) = ValueIdx.ix2 k (y 1) := funext fun a => Fin.ext (by
    match a with
    | ⟨0, _⟩ => exact (blkdot0_rhs_0 _ _).trans hk
    | ⟨1, _⟩ => exact blkdot0_rhs_1 _ _)
  rw [ValueIdx.truncf_apply, ValueIdx.truncf_apply, el, er]
  rfl

/-- Entry (p, j) of the first dense layer of the whole array: max (∑ₖ X[p, k] · W[k, j]) 0. -/
theorem lin1_apply (X : FVec Ideal Cert.ReferenceIdeal.S100000x128 .f32) (W : FVec Ideal Cert.ReferenceIdeal.S128x128 .f32) (i : Cert.ReferenceIdeal.S100000x128.Idx) :
    Cert.Hand.lin1 X W i
      = max (∑ k : Fin 128, X (ValueIdx.ix2 (i 0) k) * W (ValueIdx.ix2 k (i 1))) (Ideal.ofBits .f32 0x00000000#32) := by
  unfold Cert.Hand.lin1
  rw [ValueIdx.maximumf_apply, broadcastInDim_apply _ Cert.ReferenceIdeal.Facts₀.bcast_S_S100000x128 _ i (fun a => a.elim0) (fun a => a.elim0), ValueIdx.constant_apply]
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine congrArg (fun s => max s _) (Finset.sum_congr rfl fun k _ => ?_)
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = ValueIdx.ix2 (i 0) k := funext fun a => Fin.ext (by
    match a with
    | ⟨0, _⟩ => exact arrdot0_lhs_0 _ _
    | ⟨1, _⟩ => exact (arrdot0_lhs_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = ValueIdx.ix2 k (i 1) := funext fun a => Fin.ext (by
    match a with
    | ⟨0, _⟩ => exact (arrdot0_rhs_0 _ _).trans hk
    | ⟨1, _⟩ => exact arrdot0_rhs_1 _ _)
  rw [el, er]
  rfl

/-! ## From blocks to the array -/

theorem zeroOff0 : (![0, 0] : Fin 2 → Nat) = fun _ => 0 := funext fun a => by fin_cases a <;> rfl

/-- The printed index maps, decided over the grid: at point t the row-block window of the input and the output's window
    sit at block (t, 0), the weights' window at block (0, 0). -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- One block's entry against the whole array's: when the block x0 holds rows 5000·b … 5000·b + 4999 of X and x1 is W,
    the body's result at (r, j) is the dense layer of the whole array at (5000·b + r, j) — both are
    max (∑ₖ X[5000·b + r, k] · W[k, j]) 0. -/
theorem blk_entry0 (X : FVec Ideal S100000x128 .f32) (W : FVec Ideal S128x128 .f32)
    (x0 : FVec Ideal S5000x128 .f32) (x1 : FVec Ideal S128x128 .f32) (y : S5000x128.Idx) (i : S100000x128.Idx)
    (h0 : ∀ k : Fin 128, x0 (ValueIdx.ix2 (y 0) k) = X (ValueIdx.ix2 (i 0) k))
    (h1 : ∀ k : Fin 128, x1 (ValueIdx.ix2 k (y 1)) = W (ValueIdx.ix2 k (i 1))) :
    k0_pay1 (F := Ideal) x0 x1 y = Cert.Hand.lin1 X W i := by
  rw [pay0_apply, lin1_apply]
  exact congrArg (fun s => max s _) (Finset.sum_congr rfl fun k _ => by rw [h0 k, h1 k])

/-- What point t writes back is block t of the dense layer of the arrays as the region finds them. -/
theorem flushed0_eq (c : Dev nD) (t : Fin cfg0.N) :
    (dat0 (F := Ideal) V c).flushed 2 t
      = ((cfg0.win 2).blk t).view.read (Elt Ideal) (Cert.Hand.lin1 (V c main_v12) (V c main_arg5)) := by
  show (cfg0.win 2).cut (grid0.coords t) ((dat0 (F := Ideal) V c).after 2 t) = _
  rw [after0_2]
  unfold out0_2
  rw [View.canon_unit_zero zeroOff0]
  simp only [View.ld_unit_zero (S := S5000x128) zeroOff0, View.ld_unit_zero (S := S128x128) zeroOff0]
  obtain ⟨e0, e1, e2, e3, e4, e5⟩ := idx_facts0 t
  funext y
  refine blk_entry0 (V c main_v12) (V c main_arg5) _ _ y (((cfg0.win 2).blk t).view.emb y) (fun k => ?_) (fun k => ?_)
  · show V c main_v12 (((cfg0.win 0).blk t).view.emb (ValueIdx.ix2 (y 0) k)) = V c main_v12 _
    refine congrArg _ (funext fun a => Fin.ext ?_)
    match a with
    | ⟨0, _⟩ => show win0_0.index t (0 : Fin 2) * 5000 + 1 * (y 0).val = win0_2.index t (0 : Fin 2) * 5000 + 1 * (y 0).val; rw [e0, e4]
    | ⟨1, _⟩ => show win0_0.index t (1 : Fin 2) * 128 + 1 * k.val = k.val; rw [e1]; omega
  · show V c main_arg5 (((cfg0.win 1).blk t).view.emb (ValueIdx.ix2 k (y 1))) = V c main_arg5 _
    refine congrArg _ (funext fun a => Fin.ext ?_)
    match a with
    | ⟨0, _⟩ => show win0_1.index t (0 : Fin 2) * 128 + 1 * k.val = k.val; rw [e2]; omega
    | ⟨1, _⟩ => show win0_1.index t (1 : Fin 2) * 128 + 1 * (y 1).val = win0_2.index t (1 : Fin 2) * 128 + 1 * (y 1).val; rw [e3, e5]

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v13).slice (win0_2.rect t)).set ↔ _
  rw [View.set_slice_whole, Rect.mem_set_unit]
  exact Iff.rfl

/-- The twenty row blocks tile the output array: row p lies in the block of point p / 5000. -/
theorem cover0 (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  have ht : (i 0).val / 5000 < cfg0.N := by rw [hN]; omega
  obtain ⟨e0, e1, e2, e3, e4, e5⟩ := idx_facts0 ⟨(i 0).val / 5000, ht⟩
  refine ⟨⟨(i 0).val / 5000, ht⟩, flush0_2 _, ?_⟩
  rw [mem_blk0]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000
              rw [e4]; show (i 0).val / 5000 * 5000 ≤ (i 0).val ∧ (i 0).val < (i 0).val / 5000 * 5000 + 5000; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128
              rw [e5]; omega

theorem region0_value (c : Dev nD) :
    (dat0 (F := Ideal) V c).arrAt 2 cfg0.N = Cert.Hand.lin1 (V c main_v12) (V c main_arg5) :=
  (dat0 (F := Ideal) V c).arrAt_eq_of_cover 2 (Cert.Hand.lin1 (V c main_v12) (V c main_arg5))
    (fun t _ => flushed0_eq V c t) cover0

end Cert.KernelIdeal.Hand

end
-- ==== Proof.Region1.lean ====
/- Region 1 of the kernel program (the second dense layer): what the pipelined matmul kernel leaves in its output
   array, as ONE whole-array function of the two arrays it reads. Each grid point t writes rows
   5000·t … 5000·t + 4999; entry (r, j) of a block is ∑ₖ X[5000·t + r, k] · W[k, j], the rounding to bf16 being the
   identity on the extended reals, and the twenty blocks tile the array. -/
import proofs.«128217_j41695542509975_1_alg».proof.Proof.Gen.KernelIdeal.Frame
import proofs.«128217_j41695542509975_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The two contractions, index by index -/

/-- The block matmul's left operand index at output (r, j) and contraction index q keeps the row r … -/
theorem blkdot1_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and takes q as its column; -/
theorem blkdot1_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- the right operand index takes q as its row … -/
theorem blkdot1_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … and keeps the column j. -/
theorem blkdot1_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The same four facts for the whole-array product's dimension numbers. -/
theorem arrdot1_lhs_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem arrdot1_lhs_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem arrdot1_rhs_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem arrdot1_rhs_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- Entry (r, j) of the kernel body's result from a row block x0 and the weights x1: ∑ₖ x0[r, k] · x1[k, j];
    the change of format is the identity on the extended reals and the accumulator is the zero splat. -/
theorem pay1_apply (x0 : FVec Ideal S5000x128 .f32) (x1 : FVec Ideal S128x64 .f32) (y : S5000x64.Idx) :
    k1_pay1 (F := Ideal) x0 x1 y = ∑ k : Fin 128, x0 (ValueIdx.ix2 (y 0) k) * x1 (ValueIdx.ix2 k (y 1)) := by
  unfold k1_pay1
  rw [shapeCast_self]
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx y ((ValueIdx.contrEquiv1 dot_S5000x128_S128x64_S5000x64_1_0_0_1_n_n 128 rfl rfl).symm k) = ValueIdx.ix2 (y 0) k := funext fun a => Fin.ext (by
    match a with
    | ⟨0, _⟩ => exact blkdot1_lhs_0 _ _
    | ⟨1, _⟩ => exact (blkdot1_lhs_1 _ _).trans hk)
  have er : dot_S5000x128_S128x64_S5000x64_1_0_0_1_n_n.rhsIdx y ((ValueIdx.contrEquiv1 dot_S5000x128_S128x64_S5000x64_1_0_0_1_n_n 128 rfl rfl).symm k) = ValueIdx.ix2 k (y 1) := funext fun a => Fin.ext (by
    match a with
    | ⟨0, _⟩ => exact (blkdot1_rhs_0 _ _).trans hk
    | ⟨1, _⟩ => exact blkdot1_rhs_1 _ _)
  rw [ValueIdx.truncf_apply, ValueIdx.truncf_apply, el, er]
  rfl

/-- Entry (p, j) of the second dense layer of the whole array: ∑ₖ X[p, k] · W[k, j]. -/
theorem lin2_apply (X : FVec Ideal Cert.ReferenceIdeal.S100000x128 .f32) (W : FVec Ideal Cert.ReferenceIdeal.S128x64 .f32) (i : Cert.ReferenceIdeal.S100000x64.Idx) :
    Cert.Hand.lin2 X W i = ∑ k : Fin 128, X (ValueIdx.ix2 (i 0) k) * W (ValueIdx.ix2 k (i 1)) := by
  unfold Cert.Hand.lin2
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = ValueIdx.ix2 (i 0) k := funext fun a => Fin.ext (by
    match a with
    | ⟨0, _⟩ => exact arrdot1_lhs_0 _ _
    | ⟨1, _⟩ => exact (arrdot1_lhs_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = ValueIdx.ix2 k (i 1) := funext fun a => Fin.ext (by
    match a with
    | ⟨0, _⟩ => exact (arrdot1_rhs_0 _ _).trans hk
    | ⟨1, _⟩ => exact arrdot1_rhs_1 _ _)
  rw [el, er]
  rfl

/-! ## From blocks to the array -/

theorem zeroOff1 : (![0, 0] : Fin 2 → Nat) = fun _ => 0 := funext fun a => by fin_cases a <;> rfl

/-- The printed index maps, decided over the grid: at point t the row-block window of the input and the output's window
    sit at block (t, 0), the weights' window at block (0, 0). -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- One block's entry against the whole array's: when the block x0 holds rows 5000·b … 5000·b + 4999 of X and x1 is W,
    the body's result at (r, j) is the dense layer of the whole array at (5000·b + r, j) — both are
    ∑ₖ X[5000·b + r, k] · W[k, j]. -/
theorem blk_entry1 (X : FVec Ideal S100000x128 .f32) (W : FVec Ideal S128x64 .f32)
    (x0 : FVec Ideal S5000x128 .f32) (x1 : FVec Ideal S128x64 .f32) (y : S5000x64.Idx) (i : S100000x64.Idx)
    (h0 : ∀ k : Fin 128, x0 (ValueIdx.ix2 (y 0) k) = X (ValueIdx.ix2 (i 0) k))
    (h1 : ∀ k : Fin 128, x1 (ValueIdx.ix2 k (y 1)) = W (ValueIdx.ix2 k (i 1))) :
    k1_pay1 (F := Ideal) x0 x1 y = Cert.Hand.lin2 X W i := by
  rw [pay1_apply, lin2_apply]
  exact Finset.sum_congr rfl fun k _ => by rw [h0 k, h1 k]

/-- What point t writes back is block t of the dense layer of the arrays as the region finds them. -/
theorem flushed1_eq (c : Dev nD) (t : Fin cfg1.N) :
    (dat1 (F := Ideal) V c).flushed 2 t
      = ((cfg1.win 2).blk t).view.read (Elt Ideal) (Cert.Hand.lin2 (V c main_v26) (V c main_arg6)) := by
  show (cfg1.win 2).cut (grid1.coords t) ((dat1 (F := Ideal) V c).after 2 t) = _
  rw [after1_2]
  unfold out1_2
  rw [View.canon_unit_zero zeroOff1]
  simp only [View.ld_unit_zero (S := S5000x128) zeroOff1, View.ld_unit_zero (S := S128x64) zeroOff1]
  obtain ⟨e0, e1, e2, e3, e4, e5⟩ := idx_facts1 t
  funext y
  refine blk_entry1 (V c main_v26) (V c main_arg6) _ _ y (((cfg1.win 2).blk t).view.emb y) (fun k => ?_) (fun k => ?_)
  · show V c main_v26 (((cfg1.win 0).blk t).view.emb (ValueIdx.ix2 (y 0) k)) = V c main_v26 _
    refine congrArg _ (funext fun a => Fin.ext ?_)
    match a with
    | ⟨0, _⟩ => show win1_0.index t (0 : Fin 2) * 5000 + 1 * (y 0).val = win1_2.index t (0 : Fin 2) * 5000 + 1 * (y 0).val; rw [e0, e4]
    | ⟨1, _⟩ => show win1_0.index t (1 : Fin 2) * 128 + 1 * k.val = k.val; rw [e1]; omega
  · show V c main_arg6 (((cfg1.win 1).blk t).view.emb (ValueIdx.ix2 k (y 1))) = V c main_arg6 _
    refine congrArg _ (funext fun a => Fin.ext ?_)
    match a with
    | ⟨0, _⟩ => show win1_1.index t (0 : Fin 2) * 128 + 1 * k.val = k.val; rw [e2]; omega
    | ⟨1, _⟩ => show win1_1.index t (1 : Fin 2) * 64 + 1 * (y 1).val = win1_2.index t (1 : Fin 2) * 64 + 1 * (y 1).val; rw [e3, e5]

/-- An index of the output array is in point t's block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v27).slice (win1_2.rect t)).set ↔ _
  rw [View.set_slice_whole, Rect.mem_set_unit]
  exact Iff.rfl

/-- The twenty row blocks tile the output array: row p lies in the block of point p / 5000. -/
theorem cover1 (i : S100000x64.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 64 := (i 1).isLt
  have ht : (i 0).val / 5000 < cfg1.N := by rw [hN]; omega
  obtain ⟨e0, e1, e2, e3, e4, e5⟩ := idx_facts1 ⟨(i 0).val / 5000, ht⟩
  refine ⟨⟨(i 0).val / 5000, ht⟩, flush1_2 _, ?_⟩
  rw [mem_blk1]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000
              rw [e4]; show (i 0).val / 5000 * 5000 ≤ (i 0).val ∧ (i 0).val < (i 0).val / 5000 * 5000 + 5000; omega
  | ⟨1, _⟩ => show win1_2.index ⟨(i 0).val / 5000, ht⟩ (1 : Fin 2) * 64 ≤ (i 1).val ∧ (i 1).val < win1_2.index ⟨(i 0).val / 5000, ht⟩ (1 : Fin 2) * 64 + 64
              rw [e5]; omega

theorem region1_value (c : Dev nD) :
    (dat1 (F := Ideal) V c).arrAt 2 cfg1.N = Cert.Hand.lin2 (V c main_v26) (V c main_arg6) :=
  (dat1 (F := Ideal) V c).arrAt_eq_of_cover 2 (Cert.Hand.lin2 (V c main_v26) (V c main_arg6))
    (fun t _ => flushed1_eq V c t) cover1

end Cert.KernelIdeal.Hand

end
-- ==== Proof.Region2.lean ====
/- Region 2 of the kernel program (the decoder): what the pipelined row-inner-product kernel leaves in its [P, 1]
   output array, as ONE whole-array function of the two arrays it reads. Each grid point t writes rows
   5000·t … 5000·t + 4999; entry (r, 0) of a block is the lane sum ∑ₖ a[5000·t + r, k] · b[5000·t + r, k], and the
   hundred blocks tile the array. -/
import proofs.«128217_j41695542509975_1_alg».proof.Proof.Gen.KernelIdeal.Frame
import proofs.«128217_j41695542509975_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

namespace Decoder

open Idealize.ShloMosaic.ValueIdx

/-! ## One entry: the lane sum of a row of products, on both sides -/

/-- The body loads and stores its whole staging buffers: the offsets (0, 0). -/
theorem zero_offsets : (![0, 0] : Fin 2 → Nat) = fun _ => 0 :=
  funext fun a => match a with | ⟨0, _⟩ => rfl | ⟨1, _⟩ => rfl

/-- A [5000] vector laid out as a [5000, 1] column reads, at (p, 0), its entry p: the two row-major positions are
    p and p · 1 + 0. -/
theorem column_apply {α : Type} (v : S5000.Idx → α) (h : S5000.ShapeCasts S5000x1) (p : Fin 5000) (q : Fin 1) :
    shapeCast S5000x1 v h (ix2 p q) = v (ix1 p) := by
  refine shapeCast_apply v h (ix2 p q) (ix1 p) ?_
  rw [Shape.rowMajor_val_one, Shape.rowMajor_val_two]
  show p.val = p.val * 1 + q.val
  have := q.isLt
  omega

/-- The index a sum over axis 1 of a [5000, 64] block inserts lane k at, above row p, is (p, k). -/
theorem lift_row (h : S5000x64.Reduces [1] S5000) (p : Fin 5000) (k : Fin 64) : h.lift (ix1 p) k = ix2 p k := by
  funext a; apply Fin.ext
  match a with
  | ⟨0, _⟩ => rfl
  | ⟨1, _⟩ => rfl

/-- THE KERNEL'S ENTRY: what the body stores at (p, 0) is ∑ₖ x0[p, k] · x1[p, k] — the column layout reads row p of
    the lane sum, the lane sum is the sum over the 64 lanes, the product is pointwise and the two casts to the same
    shape are the identity. -/
theorem payload_apply (x0 x1 : Vec Ideal S5000x64 .f32) (p : Fin 5000) (q : Fin 1) :
    k2_pay1 (F := Ideal) x0 x1 (ix2 p q) = ∑ k : Fin 64, x0 (ix2 p k) * x1 (ix2 p k) := by
  unfold k2_pay1
  rw [column_apply]
  refine (Ideal.multiReduction_add_single _ _ _ _ _ (ix1 p)).trans ?_
  show (∑ k : Fin 64, _) = _
  refine Finset.sum_congr rfl fun (k : Fin 64) _ => ?_
  rw [lift_row, shapeCast_self, shapeCast_self, mulf_apply]

/-- The index the host's sum over axis 1 of a [500000, 64] array inserts lane k at, above row r, is (r, k). -/
theorem lift_row_ref (h : Cert.ReferenceIdeal.S500000x64.Reduces [1] Cert.ReferenceIdeal.S500000) (r : Fin 500000)
    (k : Fin 64) : h.lift (ix1 r) k = ix2 r k := by
  funext a; apply Fin.ext
  match a with
  | ⟨0, _⟩ => rfl
  | ⟨1, _⟩ => rfl

/-- THE DECODER'S ENTRY: at row r it is 0 + ∑ₖ a[r, k] · b[r, k], the initial value being the zero word. -/
theorem dec_apply (a b : FVec Ideal Cert.ReferenceIdeal.S500000x64 .f32) (r : Fin 500000) :
    Cert.Hand.dec a b (ix1 r) = ∑ k : Fin 64, a (ix2 r k) * b (ix2 r k) := by
  unfold Cert.Hand.dec
  simp only [Host.reduceAdd, Ideal.hostReduceAdd_def]
  rw [Ideal.hostReduceAdd_single Cert.ReferenceIdeal.Facts₀.reducesTo_S500000x64_S500000_d1 (by decide)]
  rw [constant_apply, Ideal.ofBits_zero_f32, zero_add]
  show (∑ k : Fin 64, _) = _
  refine Finset.sum_congr rfl fun (k : Fin 64) _ => ?_
  rw [lift_row_ref, mulf_apply]

/-- One entry of a block: when row p of each loaded block is row (i 0) of its array, entry (p, 0) of what the
    body stores is the decoder's column at i: both are the lane sum of the products of those two rows. -/
theorem block_entry (x0 x1 : Vec Ideal S5000x64 .f32) (a b : FVec Ideal Cert.ReferenceIdeal.S500000x64 .f32)
    (p : Fin 5000) (q : Fin 1) (i : Cert.ReferenceIdeal.S500000x1.Idx)
    (h0 : ∀ k : Fin 64, x0 (ix2 p k) = a (ix2 (i 0) k))
    (h1 : ∀ k : Fin 64, x1 (ix2 p k) = b (ix2 (i 0) k)) :
    k2_pay1 (F := Ideal) x0 x1 (ix2 p q) = Cert.Hand.decCol a b i := by
  rw [payload_apply]
  refine Eq.trans ?_ (dec_apply a b (i 0)).symm
  exact Finset.sum_congr rfl fun k _ => by rw [h0 k, h1 k]

/-! ## From blocks to the array -/

/-- The printed index maps, decided over the grid: at point t all three windows sit at block (t, 0). -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of the decoder's column of the two arrays as the region finds them: entry
    (p, 0) of the block sits at row t · 5000 + p of the output, and row p of each input block is row t · 5000 + p of
    its array (a block's coordinate is its block index times the block's size plus the coordinate inside). -/
theorem flushed_eq (c : Dev nD) (t : Fin cfg2.N) :
    (dat2 (F := Ideal) V c).flushed 2 t
      = ((cfg2.win 2).blk t).view.read (Elt Ideal) (Cert.Hand.decCol (V c main_v36) (V c main_v45)) := by
  show (cfg2.win 2).cut (grid2.coords t) ((dat2 (F := Ideal) V c).after 2 t) = _
  rw [after2_2]
  unfold out2_2
  rw [View.canon_unit_zero zero_offsets]
  simp only [View.ld_unit_zero (S := S5000x64) zero_offsets]
  obtain ⟨e0, e1, e2, e3, e4, e5⟩ := block_indices t
  funext y
  obtain ⟨p, q, rfl⟩ : ∃ (p : Fin 5000) (q : Fin 1), y = ix2 p q := ⟨y 0, y 1, eq_ix2 y⟩
  show k2_pay1 (F := Ideal) (iblk2 V c 0 t) (iblk2 V c 1 t) (ix2 p q)
    = Cert.Hand.decCol (V c main_v36) (V c main_v45) (((cfg2.win 2).blk t).view.emb (ix2 p q))
  have hp : p.val < 5000 := p.isLt
  refine block_entry _ _ _ _ p q _ (fun k => ?_) (fun k => ?_)
  · show V c main_v36 (((cfg2.win 0).blk t).view.emb (ix2 p k))
      = V c main_v36 (ix2 ((((cfg2.win 2).blk t).view.emb (ix2 p q)) 0) k)
    refine congrArg _ (funext fun a => Fin.ext ?_)
    match a with
    | ⟨0, _⟩ =>
      show win2_0.index t (0 : Fin 2) * 5000 + 1 * p.val = win2_2.index t (0 : Fin 2) * 5000 + 1 * p.val
      omega
    | ⟨1, _⟩ =>
      show win2_0.index t (1 : Fin 2) * 64 + 1 * k.val = k.val
      omega
  · show V c main_v45 (((cfg2.win 1).blk t).view.emb (ix2 p k))
      = V c main_v45 (ix2 ((((cfg2.win 2).blk t).view.emb (ix2 p q)) 0) k)
    refine congrArg _ (funext fun a => Fin.ext ?_)
    match a with
    | ⟨0, _⟩ =>
      show win2_1.index t (0 : Fin 2) * 5000 + 1 * p.val = win2_2.index t (0 : Fin 2) * 5000 + 1 * p.val
      omega
    | ⟨1, _⟩ =>
      show win2_1.index t (1 : Fin 2) * 64 + 1 * k.val = k.val
      omega

/-- An index of the output array lies in point t's block iff each coordinate is in the block's range on its axis. -/
theorem mem_block (t : Fin cfg2.N) (i : S500000x1.Idx) :
    i ∈ ((cfg2.win 2).blk t).view.set ↔ ∀ a : Fin 2, win2_2.index t a * S5000x1.size a ≤ (i a).val
      ∧ (i a).val < win2_2.index t a * S5000x1.size a + S5000x1.size a := by
  show i ∈ ((View.whole main_v46).slice (win2_2.rect t)).set ↔ _
  rw [View.set_slice_whole, Rect.mem_set_unit]
  exact Iff.rfl

/-- The hundred blocks tile the array: row r lies in the block of point r / 5000, since
    (r / 5000) · 5000 ≤ r < (r / 5000) · 5000 + 5000 and r < 500000 puts r / 5000 below 100. -/
theorem covered (i : S500000x1.Idx) :
    ∃ t : Fin cfg2.N, (cfg2.win 2).flush t = true ∧ i ∈ ((cfg2.win 2).blk t).view.set := by
  have hi0 : (i 0).val < 500000 := (i 0).isLt
  have hi1 : (i 1).val < 1 := (i 1).isLt
  have hN : grid2.N = 100 := N_2
  have ht : (i 0).val / 5000 < cfg2.N := by show _ < grid2.N; rw [hN]; omega
  obtain ⟨-, -, -, -, e4, e5⟩ := block_indices ⟨(i 0).val / 5000, ht⟩
  refine ⟨⟨(i 0).val / 5000, ht⟩, flush2_2 _, ?_⟩
  rw [mem_block]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 1 ≤ (i 1).val
      ∧ (i 1).val < win2_2.index ⟨(i 0).val / 5000, ht⟩ (1 : Fin 2) * 1 + 1
    rw [e5]
    omega

end Decoder

/-- THE OUTPUT ARRAY after the region: every point writes back its block of the decoder's column, and the blocks
    cover the array. -/
theorem region2_value (c : Dev nD) :
    (dat2 (F := Ideal) V c).arrAt 2 cfg2.N = Cert.Hand.decCol (V c main_v36) (V c main_v45) :=
  (dat2 (F := Ideal) V c).arrAt_eq_of_cover 2 (Cert.Hand.decCol (V c main_v36) (V c main_v45))
    (fun t _ => Decoder.flushed_eq V c t) Decoder.covered

end Cert.KernelIdeal.Hand

end
-- ==== Proof.KernelValue.lean ====
/- The kernel program's buffers at the boundaries of its host stretches and regions, read back to the launch memory.
   A buffer that no operation of a stretch writes, and that is not one of a region's arrays, keeps its contents, so
   every argument array is still as launched wherever it is read. Each stretch's result is its operations applied to
   what it reads: the first two stretches are the sparse aggregation `agg`, the third the two endpoint gathers
   `pick`, the last the reshape of the decoder's [P, 1] column to a vector. Each region's output array is the dense
   stage of the region (`lin1`, `lin2`, `decCol`) of the arrays it reads. Chained, the result buffer holds `final`
   of the arguments. -/
import proofs.«128217_j41695542509975_1_alg».proof.Proof.Gen.KernelIdeal.Frame
import proofs.«128217_j41695542509975_1_alg».proof.Proof.Chain
import proofs.«128217_j41695542509975_1_alg».proof.Proof.Region0
import proofs.«128217_j41695542509975_1_alg».proof.Proof.Region1
import proofs.«128217_j41695542509975_1_alg».proof.Proof.Region2
import Idealize.ShloMosaic.Lib.StableHlo.Run
import Idealize.ShloMosaic.Lib.Pipeline.Value
import Idealize.ShloMosaic.Lib.ValueIdx

set_option maxRecDepth 16384

noncomputable section

namespace Cert.Hand

open Idealize.ShloMosaic Idealize.ShloMosaic.TcCoe
open Cert.ReferenceIdeal Cert.ReferenceIdeal.Facts₀

/-- The decoder's [P, 1] column reshaped to a vector is the decoder's vector: entry `p` of the vector is entry
    `(p, 0)` of the column, both at row-major position `p`. -/
theorem shapeCast_decCol (a b : FVec Ideal S500000x64 .f32) :
    shapeCast S500000 (decCol a b) shapeCasts_S500000x1_S500000 = dec a b := by
  funext j
  refine (shapeCast_apply (decCol a b) shapeCasts_S500000x1_S500000 j (ValueIdx.ix2 (j 0) ⟨0, by decide⟩) ?_).trans ?_
  · rw [Shape.rowMajor_val_two, Shape.rowMajor_val_one]
    show (j 0).val * 1 + 0 = (j 0).val
    omega
  · show dec a b (ValueIdx.ix1 (j 0)) = dec a b j
    exact congrArg (dec a b) (ValueIdx.eq_ix1 j).symm

end Cert.Hand

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- No operation of the stretch writes the buffer: every `writes` set is a singleton of another reference. -/
local macro "not_written" : tactic => `(tactic| (
  refine List.forall_iff_forall_mem.mp ?_
  simp only [hostOps0, hostOps1, hostOps2, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## The argument arrays, as launched, at every boundary where one is read -/

theorem W1_arg1 (c : Dev nD) : W1 m ρ c (Proc.devRef .tc main_arg1) = (m ((c : Thread nD τ).loc main_arg1)) :=
  StableHlo.after_of_forall_not_mem (b := (Proc.devRef .tc main_arg1)) _ _ (by not_written)
theorem W1_arg2 (c : Dev nD) : W1 m ρ c (Proc.devRef .tc main_arg2) = (m ((c : Thread nD τ).loc main_arg2)) :=
  StableHlo.after_of_forall_not_mem (b := (Proc.devRef .tc main_arg2)) _ _ (by not_written)
theorem W1_arg3 (c : Dev nD) : W1 m ρ c (Proc.devRef .tc main_arg3) = (m ((c : Thread nD τ).loc main_arg3)) :=
  StableHlo.after_of_forall_not_mem (b := (Proc.devRef .tc main_arg3)) _ _ (by not_written)
theorem W1_arg4 (c : Dev nD) : W1 m ρ c (Proc.devRef .tc main_arg4) = (m ((c : Thread nD τ).loc main_arg4)) :=
  StableHlo.after_of_forall_not_mem (b := (Proc.devRef .tc main_arg4)) _ _ (by not_written)
theorem W1_arg5 (c : Dev nD) : W1 m ρ c (Proc.devRef .tc main_arg5) = (m ((c : Thread nD τ).loc main_arg5)) :=
  StableHlo.after_of_forall_not_mem (b := (Proc.devRef .tc main_arg5)) _ _ (by not_written)
theorem W1_arg6 (c : Dev nD) : W1 m ρ c (Proc.devRef .tc main_arg6) = (m ((c : Thread nD τ).loc main_arg6)) :=
  StableHlo.after_of_forall_not_mem (b := (Proc.devRef .tc main_arg6)) _ _ (by not_written)

theorem W2_arg1 (c : Dev nD) : W2 m ρ c (Proc.devRef .tc main_arg1) = (m ((c : Thread nD τ).loc main_arg1)) :=
  (W2_of_ne m ρ c main_arg1 (by decide)).trans (W1_arg1 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg6 (c : Dev nD) : W2 m ρ c (Proc.devRef .tc main_arg6) = (m ((c : Thread nD τ).loc main_arg6)) :=
  (W2_of_ne m ρ c main_arg6 (by decide)).trans (W1_arg6 m ρ c)

theorem W3_arg4 (c : Dev nD) : W3 m ρ c (Proc.devRef .tc main_arg4) = (m ((c : Thread nD τ).loc main_arg4)) :=
  (StableHlo.after_of_forall_not_mem (b := (Proc.devRef .tc main_arg4)) _ _ (by not_written)).trans (W2_arg4 m ρ c)
theorem W3_arg6 (c : Dev nD) : W3 m ρ c (Proc.devRef .tc main_arg6) = (m ((c : Thread nD τ).loc main_arg6)) :=
  (StableHlo.after_of_forall_not_mem (b := (Proc.devRef .tc main_arg6)) _ _ (by not_written)).trans (W2_arg6 m ρ c)

theorem W4_arg4 (c : Dev nD) : W4 m ρ c (Proc.devRef .tc main_arg4) = (m ((c : Thread nD τ).loc main_arg4)) :=
  (W4_of_ne m ρ c main_arg4 (by decide)).trans (W3_arg4 m ρ c)

/-! ## The first layer -/

set_option maxHeartbeats 4000000 in
/-- The first stretch leaves the aggregation of the input features in the first kernel's operand. -/
theorem W1_v12 (c : Dev nD) : W1 m ρ c (Proc.devRef .tc main_v12)
    = Cert.Hand.agg (m ((c : Thread nD τ).loc main_arg0)) (m ((c : Thread nD τ).loc main_arg1)) (m ((c : Thread nD τ).loc main_arg2)) (m ((c : Thread nD τ).loc main_arg3)) := by
  show StableHlo.after hostOps0 (W0 m ρ c) (Proc.devRef .tc main_v12) = _
  after_results_simp <;> rfl

/-- The first kernel leaves the dense layer with its ReLU of that aggregation. -/
theorem W2_v13 (c : Dev nD) : W2 m ρ c (Proc.devRef .tc main_v13)
    = Cert.Hand.lin1 (Cert.Hand.agg (m ((c : Thread nD τ).loc main_arg0)) (m ((c : Thread nD τ).loc main_arg1)) (m ((c : Thread nD τ).loc main_arg2)) (m ((c : Thread nD τ).loc main_arg3))) (m ((c : Thread nD τ).loc main_arg5)) :=
  calc W2 m ρ c (Proc.devRef .tc main_v13)
      = (dat0 (V1 m ρ) c).arrAt 2 cfg0.N := W2_arr m ρ c 2
    _ = Cert.Hand.lin1 (W1 m ρ c (Proc.devRef .tc main_v12)) (W1 m ρ c (Proc.devRef .tc main_arg5)) := region0_value (V1 m ρ) c
    _ = _ := by rw [W1_v12, W1_arg5]

/-! ## The second layer -/

set_option maxHeartbeats 4000000 in
/-- The second stretch aggregates the first layer's output over the same edges. -/
theorem W3_v26 (c : Dev nD) : W3 m ρ c (Proc.devRef .tc main_v26)
    = Cert.Hand.agg (W2 m ρ c (Proc.devRef .tc main_v13)) (W2 m ρ c (Proc.devRef .tc main_arg1)) (W2 m ρ c (Proc.devRef .tc main_arg2)) (W2 m ρ c (Proc.devRef .tc main_arg3)) := by
  show StableHlo.after hostOps1 (W2 m ρ c) (Proc.devRef .tc main_v26) = _
  after_results_simp <;> rfl

/-- The second kernel leaves the node embeddings. -/
theorem W4_v27 (c : Dev nD) : W4 m ρ c (Proc.devRef .tc main_v27)
    = Cert.Hand.embed (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) :=
  calc W4 m ρ c (Proc.devRef .tc main_v27)
      = (dat1 (V3 m ρ) c).arrAt 2 cfg1.N := W4_arr m ρ c 2
    _ = Cert.Hand.lin2 (W3 m ρ c (Proc.devRef .tc main_v26)) (W3 m ρ c (Proc.devRef .tc main_arg6)) := region1_value (V3 m ρ) c
    _ = _ := by rw [W3_v26, W3_arg6, W2_v13, W2_arg1, W2_arg2, W2_arg3]; rfl

/-! ## The decoder -/

set_option maxHeartbeats 4000000 in
/-- The third stretch gathers the embeddings of each pair's two endpoints. -/
theorem W5_v36 (c : Dev nD) : W5 m ρ c (Proc.devRef .tc main_v36)
    = Cert.Hand.pick (W4 m ρ c (Proc.devRef .tc main_v27)) (Cert.Hand.col0 (W4 m ρ c (Proc.devRef .tc main_arg4))) := by
  show StableHlo.after hostOps2 (W4 m ρ c) (Proc.devRef .tc main_v36) = _
  after_results_simp <;> rfl
set_option maxHeartbeats 4000000 in
theorem W5_v45 (c : Dev nD) : W5 m ρ c (Proc.devRef .tc main_v45)
    = Cert.Hand.pick (W4 m ρ c (Proc.devRef .tc main_v27)) (Cert.Hand.col1 (W4 m ρ c (Proc.devRef .tc main_arg4))) := by
  show StableHlo.after hostOps2 (W4 m ρ c) (Proc.devRef .tc main_v45) = _
  after_results_simp <;> rfl

/-- The third kernel leaves the decoder's column of the two gathers. -/
theorem W6_v46 (c : Dev nD) : W6 m ρ c (Proc.devRef .tc main_v46)
    = Cert.Hand.decCol (W5 m ρ c (Proc.devRef .tc main_v36)) (W5 m ρ c (Proc.devRef .tc main_v45)) :=
  (W6_arr m ρ c 2).trans (region2_value (V5 m ρ) c)

set_option maxHeartbeats 4000000 in
/-- The last stretch reshapes the column to the result vector. -/
theorem W7_v47 (c : Dev nD) : W7 m ρ c (Proc.devRef .tc main_v47)
    = shapeCast Cert.ReferenceIdeal.S500000 (W6 m ρ c (Proc.devRef .tc main_v46)) Cert.ReferenceIdeal.Facts₀.shapeCasts_S500000x1_S500000 := by
  show StableHlo.after hostOps3 (W6 m ρ c) (Proc.devRef .tc main_v47) = _
  after_results_simp <;> rfl

/-- THE KERNEL PROGRAM'S RESULT: the result buffer at the last boundary is the network's function of the arguments. -/
theorem result_eq (c : Dev nD) : W7 m ρ c (Proc.devRef .tc main_v47)
    = Cert.Hand.final (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W7_v47, W6_v46, Cert.Hand.shapeCast_decCol, W5_v36, W5_v45, W4_v27, W4_arg4]
  rfl

end Cert.KernelIdeal.Hand

end
-- ==== Proof.RefValue.lean ====
/- The reference program's result, as its generated run states it, is `final` of the argument arrays: the run's
   composed term is, operation for operation, the nest of host operations that `final` abbreviates. -/
import proofs.«128217_j41695542509975_1_alg».proof.Defs
import proofs.«128217_j41695542509975_1_alg».proof.Proof.Gen.ReferenceIdeal.Run
import proofs.«128217_j41695542509975_1_alg».proof.Proof.Chain

noncomputable section

namespace Cert.ReferenceIdeal.RefValue

open Idealize.ShloMosaic Idealize.ShloMosaic.TcCoe Idealize.SL.Sem
open Cert.ReferenceIdeal Cert.ReferenceIdeal.Gen

set_option maxRecDepth 8192 in
/-- The reference's result array is the network's function of its arguments. -/
theorem result_eq (m : (ℓ : Loc nD τ sig) → Buf (Elt Ideal) ℓ) (c : Dev nD) :
    Cert.ReferenceIdeal.Value.res_main_v48 (F := Ideal) m c
      = Cert.Hand.final (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.Value.res_main_v48; rfl

end Cert.ReferenceIdeal.RefValue

end
-- ==== Proof.lean ====
/- The proof of `Cert.Claim`: a link predictor — two sparse aggregations, each followed by a dense layer (the first
   with a ReLU), and a decoder taking the inner product of the two endpoint embeddings of every pair — as a program of
   three pipelined kernels among host gathers and scatter-adds, against the same network written with whole-array
   host operations. Over the extended reals the two are one function, `Cert.Hand.final`, of the argument arrays:
   the host stretches of the two programs are the same operations; a kernel's rounding of its matmul operands to
   bf16 is the identity; a matmul into a zero accumulator, block of rows by block of rows, is the rows of the whole
   product `X · W`; the ReLU is the same maximum with zero; and a lane sum of a row's products is the host's sum over
   that row from the initial value zero. No law that needs finiteness is used (only the two zeros `0 + s = s`), so the
   precondition is never opened.
   Frames: the kernel programs' are the generated ones, the reference's its generated run with the result dropped.
   `preserves` is trivial (the idealization rewrote nothing). `algebraic`: the kernel program's run with its result
   buffer named (Proof/KernelRun.lean) and read back through the regions and host stretches to `final`
   (Proof/KernelValue.lean over Proof/Region0.lean, Region1.lean, Region2.lean), and the reference's run, whose composed
   term is `final` by definition (Proof/RefValue.lean). -/
import proofs.«128217_j41695542509975_1_alg».proof.Defs
import proofs.«128217_j41695542509975_1_alg».proof.Proof.Gen.Kernel
import proofs.«128217_j41695542509975_1_alg».proof.Proof.Gen.Kernel.Frame
import proofs.«128217_j41695542509975_1_alg».proof.Proof.Gen.KernelIdeal
import proofs.«128217_j41695542509975_1_alg».proof.Proof.Gen.KernelIdeal.Frame
import proofs.«128217_j41695542509975_1_alg».proof.Proof.Gen.ReferenceIdeal
import proofs.«128217_j41695542509975_1_alg».proof.Proof.Gen.ReferenceIdeal.Run
import proofs.«128217_j41695542509975_1_alg».proof.Proof.Gen.Pre_finite_inputs
import proofs.«128217_j41695542509975_1_alg».proof.Proof.KernelRun
import proofs.«128217_j41695542509975_1_alg».proof.Proof.KernelValue
import proofs.«128217_j41695542509975_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network's function `final` of the (agreeing) argument arrays in their result buffers. -/
theorem algebraic : Cert.algebraic_KernelIdeal_ReferenceIdeal := by
  intro m ρ m' ρ' _ hagree
  refine ⟨fun c => Cert.Hand.final (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.result_eq m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.RefValue.result_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
